-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x320000 : Shape := ⟨2, ![16, 320000]⟩
abbrev S1025x2048 : Shape := ⟨2, ![1025, 2048]⟩
abbrev S_ : Shape := ⟨0, ![]⟩

class Facts : Prop where
  bcast_S_S16x320000 : S_.BroadcastsInDim S16x320000 (![] : Fin 0 → Fin S16x320000.rank)
  reducesTo_S16x320000_S_d0_1 : S16x320000.ReducesTo [0, 1] S_
  h_S_ : 0 < S_.numel
  bcast_S_S1025x2048 : S_.BroadcastsInDim S1025x2048 (![] : Fin 0 → Fin S1025x2048.rank)
  reducesTo_S1025x2048_S_d0_1 : S1025x2048.ReducesTo [0, 1] S_

variable [Facts]

def fn {F : FTy → Type} [FloatOps F] (main_arg0 : FVec F S16x320000 .f32) (main_arg1 : FVec F S1025x2048 .f32) (main_arg2 : FVec F S1025x2048 .f32) : IVec S_ 1 :=
  let main_v0 : FVec F S16x320000 .f32 := Host.absf main_arg0
  let main_cst : FVec F S_ .f32 := constant S_ .f32 0x7F800000#32
  let main_v1 : FVec F S16x320000 .f32 := broadcastInDim S16x320000 ![] bcast_S_S16x320000 main_cst
  let main_v2 : IVec S16x320000 1 := cmpf .olt main_v0 main_v1
  let main_c : IVec S_ 1 := constantI S_ 1 1#1
  let main_v3 : IVec S_ 1 := (fun x v => Host.reduce IntOp.andi x v reducesTo_S16x320000_S_d0_1 h_S_) main_v2 main_c
  let main_v4 : FVec F S1025x2048 .f32 := Host.absf main_arg1
  let main_cst_0 : FVec F S_ .f32 := constant S_ .f32 0x7F800000#32
  let main_v5 : FVec F S1025x2048 .f32 := broadcastInDim S1025x2048 ![] bcast_S_S1025x2048 main_cst_0
  let main_v6 : IVec S1025x2048 1 := cmpf .olt main_v4 main_v5
  let main_c_1 : IVec S_ 1 := constantI S_ 1 1#1
  let main_v7 : IVec S_ 1 := (fun x v => Host.reduce IntOp.andi x v reducesTo_S1025x2048_S_d0_1 h_S_) main_v6 main_c_1
  let main_v8 : IVec S_ 1 := andi main_v3 main_v7
  let main_v9 : FVec F S1025x2048 .f32 := Host.absf main_arg2
  let main_cst_2 : FVec F S_ .f32 := constant S_ .f32 0x7F800000#32
  let main_v10 : FVec F S1025x2048 .f32 := broadcastInDim S1025x2048 ![] bcast_S_S1025x2048 main_cst_2
  let main_v11 : IVec S1025x2048 1 := cmpf .olt main_v9 main_v10
  let main_c_3 : IVec S_ 1 := constantI S_ 1 1#1
  let main_v12 : IVec S_ 1 := (fun x v => Host.reduce IntOp.andi x v reducesTo_S1025x2048_S_d0_1 h_S_) main_v11 main_c_3
  let main_v13 : IVec S_ 1 := andi main_v8 main_v12
  main_v13
-- ==== Kernel.lean ====
abbrev S16x320000 : Shape := ⟨2, ![16, 320000]⟩
abbrev S1025x2048 : Shape := ⟨2, ![1025, 2048]⟩
abbrev S_ : Shape := ⟨0, ![]⟩
abbrev S16x1 : Shape := ⟨2, ![16, 1]⟩
abbrev S16x1024 : Shape := ⟨2, ![16, 1024]⟩
abbrev S16x321024 : Shape := ⟨2, ![16, 321024]⟩
abbrev S16x322048 : Shape := ⟨2, ![16, 322048]⟩
abbrev S626 : Shape := ⟨1, ![626]⟩
abbrev S626x1 : Shape := ⟨2, ![626, 1]⟩
abbrev S2048 : Shape := ⟨1, ![2048]⟩
abbrev S1x2048 : Shape := ⟨2, ![1, 2048]⟩
abbrev S626x2048 : Shape := ⟨2, ![626, 2048]⟩
abbrev S626x2048x1 : Shape := ⟨3, ![626, 2048, 1]⟩
abbrev S16x626x2048 : Shape := ⟨3, ![16, 626, 2048]⟩
abbrev S16x1025x626 : Shape := ⟨3, ![16, 1025, 626]⟩
abbrev S1x626x2048 : Shape := ⟨3, ![1, 626, 2048]⟩
abbrev S1x1025x626 : Shape := ⟨3, ![1, 1025, 626]⟩
abbrev S1025x626 : Shape := ⟨2, ![1025, 626]⟩

abbrev nBuf : Space → Nat
  | .hbm => 36
  | .vmem => 8
  | .smem => 0
  | _ => 0

abbrev bufTy : (tb : Table) → Fin (tcTables nBuf tb) → BufTy
  | .hbm, ⟨0, _⟩ => ⟨S16x320000, .f32⟩
  | .hbm, ⟨1, _⟩ => ⟨S1025x2048, .f32⟩
  | .hbm, ⟨2, _⟩ => ⟨S1025x2048, .f32⟩
  | .hbm, ⟨3, _⟩ => ⟨S_, .i32⟩
  | .hbm, ⟨4, _⟩ => ⟨S16x1, .f32⟩
  | .hbm, ⟨5, _⟩ => ⟨S16x1024, .f32⟩
  | .hbm, ⟨6, _⟩ => ⟨S16x1024, .f32⟩
  | .hbm, ⟨7, _⟩ => ⟨S16x321024, .f32⟩
  | .hbm, ⟨8, _⟩ => ⟨S16x1, .f32⟩
  | .hbm, ⟨9, _⟩ => ⟨S16x1024, .f32⟩
  | .hbm, ⟨10, _⟩ => ⟨S16x1024, .f32⟩
  | .hbm, ⟨11, _⟩ => ⟨S16x322048, .f32⟩
  | .hbm, ⟨12, _⟩ => ⟨S626, .i32⟩
  | .hbm, ⟨13, _⟩ => ⟨S626x1, .i32⟩
  | .hbm, ⟨14, _⟩ => ⟨S_, .i32⟩
  | .hbm, ⟨15, _⟩ => ⟨S626x1, .i32⟩
  | .hbm, ⟨16, _⟩ => ⟨S626x1, .i32⟩
  | .hbm, ⟨17, _⟩ => ⟨S2048, .i32⟩
  | .hbm, ⟨18, _⟩ => ⟨S1x2048, .i32⟩
  | .hbm, ⟨19, _⟩ => ⟨S626x2048, .i32⟩
  | .hbm, ⟨20, _⟩ => ⟨S626x2048, .i32⟩
  | .hbm, ⟨21, _⟩ => ⟨S626x2048, .i32⟩
  | .hbm, ⟨22, _⟩ => ⟨S_, .i32⟩
  | .hbm, ⟨23, _⟩ => ⟨S626x2048, .i32⟩
  | .hbm, ⟨24, _⟩ => ⟨S626x2048, .i1⟩
  | .hbm, ⟨25, _⟩ => ⟨S_, .i32⟩
  | .hbm, ⟨26, _⟩ => ⟨S626x2048, .i32⟩
  | .hbm, ⟨27, _⟩ => ⟨S626x2048, .i32⟩
  | .hbm, ⟨28, _⟩ => ⟨S626x2048, .i32⟩
  | .hbm, ⟨29, _⟩ => ⟨S626x2048x1, .i32⟩
  | .hbm, ⟨30, _⟩ => ⟨S16x626x2048, .f32⟩
  | .hbm, ⟨31, _⟩ => ⟨S16x626x2048, .bf16⟩
  | .hbm, ⟨32, _⟩ => ⟨S1025x2048, .bf16⟩
  | .hbm, ⟨33, _⟩ => ⟨S1025x2048, .bf16⟩
  | .hbm, ⟨34, _⟩ => ⟨S16x1025x626, .f32⟩
  | .hbm, ⟨35, _⟩ => ⟨S16x1025x626, .f32⟩
  | .local _ .vmem, ⟨0, _⟩ => ⟨S1x626x2048, .bf16⟩
  | .local _ .vmem, ⟨1, _⟩ => ⟨S1x626x2048, .bf16⟩
  | .local _ .vmem, ⟨2, _⟩ => ⟨S1025x2048, .bf16⟩
  | .local _ .vmem, ⟨3, _⟩ => ⟨S1025x2048, .bf16⟩
  | .local _ .vmem, ⟨4, _⟩ => ⟨S1x1025x626, .f32⟩
  | .local _ .vmem, ⟨5, _⟩ => ⟨S1x1025x626, .f32⟩
  | .local _ .vmem, ⟨6, _⟩ => ⟨S1x1025x626, .f32⟩
  | .local _ .vmem, ⟨7, _⟩ => ⟨S1x1025x626, .f32⟩
  | _, _ => ⟨S16x320000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_1 : Ref sig .tc := ⟨.hbm, 22, rfl⟩
abbrev main_v10 : Ref sig .tc := ⟨.hbm, 23, rfl⟩
abbrev main_v11 : Ref sig .tc := ⟨.hbm, 24, rfl⟩
abbrev main_c_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20_0 : Ref sig .tc := ⟨.hbm, 34, rfl⟩
abbrev main_v20_1 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x626x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1025x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1025x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1025x626 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1025x626 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S16x320000_S16x1_0_0 : S16x320000.Slices ![0, 0] S16x1
  slices_S16x320000_S16x1024_0_1 : S16x320000.Slices ![0, 1] S16x1024
  concatenates_S16x1024_S16x320000_S16x321024_d1 : Shape.Concatenates [S16x1024, S16x320000] S16x321024 1
  slices_S16x321024_S16x1_0_321023 : S16x321024.Slices ![0, 321023] S16x1
  slices_S16x321024_S16x1024_0_319999 : S16x321024.Slices ![0, 319999] S16x1024
  concatenates_S16x321024_S16x1024_S16x322048_d1 : Shape.Concatenates [S16x321024, S16x1024] S16x322048 1
  bcast_S626_S626x1_0 : S626.BroadcastsInDim S626x1 (![0] : Fin 1 → Fin S626x1.rank)
  bcast_S_S626x1 : S_.BroadcastsInDim S626x1 (![] : Fin 0 → Fin S626x1.rank)
  bcast_S2048_S1x2048_1 : S2048.BroadcastsInDim S1x2048 (![1] : Fin 1 → Fin S1x2048.rank)
  bcast_S626x1_S626x2048_0_1 : S626x1.BroadcastsInDim S626x2048 (![0, 1] : Fin 2 → Fin S626x2048.rank)
  bcast_S1x2048_S626x2048_0_1 : S1x2048.BroadcastsInDim S626x2048 (![0, 1] : Fin 2 → Fin S626x2048.rank)
  bcast_S_S626x2048 : S_.BroadcastsInDim S626x2048 (![] : Fin 0 → Fin S626x2048.rank)
  bcast_S626x2048_S626x2048x1_0_1 : S626x2048.BroadcastsInDim S626x2048x1 (![0, 1] : Fin 2 → Fin S626x2048x1.rank)
  bitsLt_bf16_f32 : FTy.bits .bf16 < FTy.bits .f32
  inb_S1x626x2048_S1x626x2048_0_0_0 : ∀ a, (![0, 0, 0] : Fin 3 → Nat) a + S1x626x2048.size a ≤ S1x626x2048.size a
  h_S1x626x2048 : 0 < S1x626x2048.numel
  shapeCasts_S1x626x2048_S626x2048 : S1x626x2048.ShapeCasts S626x2048
  inb_S1025x2048_S1025x2048_0_0 : ∀ a, (![0, 0] : Fin 2 → Nat) a + S1025x2048.size a ≤ S1025x2048.size a
  h_S1025x2048 : 0 < S1025x2048.numel
  shapeCasts_S1025x2048_S1025x2048 : S1025x2048.ShapeCasts S1025x2048
  inb_S1x1025x626_S1x1025x626_0_0_0 : ∀ a, (![0, 0, 0] : Fin 3 → Nat) a + S1x1025x626.size a ≤ S1x1025x626.size a
  h_S1x1025x626 : 0 < S1x1025x626.numel
  shapeCasts_S1x1025x626_S1025x626 : S1x1025x626.ShapeCasts S1025x626
  shapeCasts_S1025x626_S1x1025x626 : S1025x626.ShapeCasts S1x1025x626
  gather_S16x322048_S626x2048x1_S16x626x2048_0_1_n_n_1_2_161_wf : GatherDims.WF S16x322048 S626x2048x1 S16x626x2048 [0] [1] [] [1] [] 2 ![16, 1]
  dot_S1025x2048_S626x2048_S1025x626_1_1_0_0_n_n_wf : DotDims.WF S1025x2048 S626x2048 S1025x626 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x626x2048.size a ≤ S16x626x2048.size a
  hwx0_0 : ∀ i : grid0.Coords, EltTy.bits .bf16 = 32 ∨ (Rect.block (s := S16x626x2048) S1x626x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1025x2048.size a ≤ S1025x2048.size a
  hwx0_1 : ∀ i : grid0.Coords, EltTy.bits .bf16 = 32 ∨ (Rect.block (s := S1025x2048) S1025x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1025x2048.size a ≤ S1025x2048.size a
  hwx0_2 : ∀ i : grid0.Coords, EltTy.bits .bf16 = 32 ∨ (Rect.block (s := S1025x2048) S1025x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1025x626.size a ≤ S16x1025x626.size a
  hwx0_3 : ∀ i : grid0.Coords, EltTy.bits .f32 = 32 ∨ (Rect.block (s := S16x1025x626) S1x1025x626.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1025x626.size a ≤ S16x1025x626.size a
  hwx0_4 : ∀ i : grid0.Coords, EltTy.bits .f32 = 32 ∨ (Rect.block (s := S16x1025x626) S1x1025x626.size (cc0_transform_4 i) (hinb0_4 i)).WholeWords (EltTy.packing .f32)

variable [Facts₀]

def gather_S16x322048_S626x2048x1_S16x626x2048_0_1_n_n_1_2_161 : GatherDims S16x322048 S626x2048x1 S16x626x2048 where
  offsetDims := [0]
  collapsedSliceDims := [1]
  operandBatchingDims := []
  startIndicesBatchingDims := []
  startIndexMap := [1]
  indexVectorDim := 2
  sliceSizes := ![16, 1]
  wf := gather_S16x322048_S626x2048x1_S16x626x2048_0_1_n_n_1_2_161_wf
def dot_S1025x2048_S626x2048_S1025x626_1_1_0_0_n_n : DotDims S1025x2048 S626x2048 S1025x626 where
  lhsContracting := [1]
  rhsContracting := [1]
  lhsNonContracting := [0]
  rhsNonContracting := [0]
  lhsBatch := []
  rhsBatch := []
  wf := dot_S1025x2048_S626x2048_S1025x626_1_1_0_0_n_n_wf

abbrev win0_0 : Pipeline.Window sig grid0 :=
  Pipeline.Window.ofSpec (Memref.whole main_v17) S1x626x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S1025x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1025x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20_0) S1x1025x626.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v20_1) S1x1025x626.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x320000 : Shape := ⟨2, ![16, 320000]⟩
abbrev S1025x2048 : Shape := ⟨2, ![1025, 2048]⟩
abbrev S_ : Shape := ⟨0, ![]⟩
abbrev S16x1 : Shape := ⟨2, ![16, 1]⟩
abbrev S16x1024 : Shape := ⟨2, ![16, 1024]⟩
abbrev S16x321024 : Shape := ⟨2, ![16, 321024]⟩
abbrev S16x322048 : Shape := ⟨2, ![16, 322048]⟩
abbrev S626 : Shape := ⟨1, ![626]⟩
abbrev S626x1 : Shape := ⟨2, ![626, 1]⟩
abbrev S2048 : Shape := ⟨1, ![2048]⟩
abbrev S1x2048 : Shape := ⟨2, ![1, 2048]⟩
abbrev S626x2048 : Shape := ⟨2, ![626, 2048]⟩
abbrev S626x2048x1 : Shape := ⟨3, ![626, 2048, 1]⟩
abbrev S16x626x2048 : Shape := ⟨3, ![16, 626, 2048]⟩
abbrev S1025x16x626 : Shape := ⟨3, ![1025, 16, 626]⟩
abbrev S16x1025x626 : Shape := ⟨3, ![16, 1025, 626]⟩

abbrev nBuf : Space → Nat
  | .hbm => 35
  | .vmem => 0
  | .smem => 0
  | _ => 0

abbrev bufTy : (tb : Table) → Fin (tcTables nBuf tb) → BufTy
  | .hbm, ⟨0, _⟩ => ⟨S16x320000, .f32⟩
  | .hbm, ⟨1, _⟩ => ⟨S1025x2048, .f32⟩
  | .hbm, ⟨2, _⟩ => ⟨S1025x2048, .f32⟩
  | .hbm, ⟨3, _⟩ => ⟨S_, .i32⟩
  | .hbm, ⟨4, _⟩ => ⟨S16x1, .f32⟩
  | .hbm, ⟨5, _⟩ => ⟨S16x1024, .f32⟩
  | .hbm, ⟨6, _⟩ => ⟨S16x1024, .f32⟩
  | .hbm, ⟨7, _⟩ => ⟨S16x321024, .f32⟩
  | .hbm, ⟨8, _⟩ => ⟨S16x1, .f32⟩
  | .hbm, ⟨9, _⟩ => ⟨S16x1024, .f32⟩
  | .hbm, ⟨10, _⟩ => ⟨S16x1024, .f32⟩
  | .hbm, ⟨11, _⟩ => ⟨S16x322048, .f32⟩
  | .hbm, ⟨12, _⟩ => ⟨S626, .i32⟩
  | .hbm, ⟨13, _⟩ => ⟨S626x1, .i32⟩
  | .hbm, ⟨14, _⟩ => ⟨S_, .i32⟩
  | .hbm, ⟨15, _⟩ => ⟨S626x1, .i32⟩
  | .hbm, ⟨16, _⟩ => ⟨S626x1, .i32⟩
  | .hbm, ⟨17, _⟩ => ⟨S2048, .i32⟩
  | .hbm, ⟨18, _⟩ => ⟨S1x2048, .i32⟩
  | .hbm, ⟨19, _⟩ => ⟨S626x2048, .i32⟩
  | .hbm, ⟨20, _⟩ => ⟨S626x2048, .i32⟩
  | .hbm, ⟨21, _⟩ => ⟨S626x2048, .i32⟩
  | .hbm, ⟨22, _⟩ => ⟨S_, .i32⟩
  | .hbm, ⟨23, _⟩ => ⟨S626x2048, .i32⟩
  | .hbm, ⟨24, _⟩ => ⟨S626x2048, .i1⟩
  | .hbm, ⟨25, _⟩ => ⟨S_, .i32⟩
  | .hbm, ⟨26, _⟩ => ⟨S626x2048, .i32⟩
  | .hbm, ⟨27, _⟩ => ⟨S626x2048, .i32⟩
  | .hbm, ⟨28, _⟩ => ⟨S626x2048, .i32⟩
  | .hbm, ⟨29, _⟩ => ⟨S626x2048x1, .i32⟩
  | .hbm, ⟨30, _⟩ => ⟨S16x626x2048, .f32⟩
  | .hbm, ⟨31, _⟩ => ⟨S1025x16x626, .f32⟩
  | .hbm, ⟨32, _⟩ => ⟨S16x1025x626, .f32⟩
  | .hbm, ⟨33, _⟩ => ⟨S1025x16x626, .f32⟩
  | .hbm, ⟨34, _⟩ => ⟨S16x1025x626, .f32⟩
  | _, _ => ⟨S16x320000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_1 : Ref sig .tc := ⟨.hbm, 22, rfl⟩
abbrev main_v10 : Ref sig .tc := ⟨.hbm, 23, rfl⟩
abbrev main_v11 : Ref sig .tc := ⟨.hbm, 24, rfl⟩
abbrev main_c_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩

abbrev nD : Nat := 1
abbrev τ : Topo := Topo.v7x

variable {F : FTy → Type} [FloatOps F]

class Facts₀ : Prop where
  slices_S16x320000_S16x1_0_0 : S16x320000.Slices ![0, 0] S16x1
  slices_S16x320000_S16x1024_0_1 : S16x320000.Slices ![0, 1] S16x1024
  concatenates_S16x1024_S16x320000_S16x321024_d1 : Shape.Concatenates [S16x1024, S16x320000] S16x321024 1
  slices_S16x321024_S16x1_0_321023 : S16x321024.Slices ![0, 321023] S16x1
  slices_S16x321024_S16x1024_0_319999 : S16x321024.Slices ![0, 319999] S16x1024
  concatenates_S16x321024_S16x1024_S16x322048_d1 : Shape.Concatenates [S16x321024, S16x1024] S16x322048 1
  bcast_S626_S626x1_0 : S626.BroadcastsInDim S626x1 (![0] : Fin 1 → Fin S626x1.rank)
  bcast_S_S626x1 : S_.BroadcastsInDim S626x1 (![] : Fin 0 → Fin S626x1.rank)
  bcast_S2048_S1x2048_1 : S2048.BroadcastsInDim S1x2048 (![1] : Fin 1 → Fin S1x2048.rank)
  bcast_S626x1_S626x2048_0_1 : S626x1.BroadcastsInDim S626x2048 (![0, 1] : Fin 2 → Fin S626x2048.rank)
  bcast_S1x2048_S626x2048_0_1 : S1x2048.BroadcastsInDim S626x2048 (![0, 1] : Fin 2 → Fin S626x2048.rank)
  bcast_S_S626x2048 : S_.BroadcastsInDim S626x2048 (![] : Fin 0 → Fin S626x2048.rank)
  bcast_S626x2048_S626x2048x1_0_1 : S626x2048.BroadcastsInDim S626x2048x1 (![0, 1] : Fin 2 → Fin S626x2048x1.rank)
  transposes_S1025x16x626_S16x1025x626_1_0_2 : S1025x16x626.Transposes [1, 0, 2] S16x1025x626
  gather_S16x322048_S626x2048x1_S16x626x2048_0_1_n_n_1_2_161_wf : GatherDims.WF S16x322048 S626x2048x1 S16x626x2048 [0] [1] [] [1] [] 2 ![16, 1]
  dot_S1025x2048_S16x626x2048_S1025x16x626_1_2_0_01_n_n_wf : DotDims.WF S1025x2048 S16x626x2048 S1025x16x626 [1] [2] [0] [0, 1] [] []

variable [Facts₀]

def gather_S16x322048_S626x2048x1_S16x626x2048_0_1_n_n_1_2_161 : GatherDims S16x322048 S626x2048x1 S16x626x2048 where
  offsetDims := [0]
  collapsedSliceDims := [1]
  operandBatchingDims := []
  startIndicesBatchingDims := []
  startIndexMap := [1]
  indexVectorDim := 2
  sliceSizes := ![16, 1]
  wf := gather_S16x322048_S626x2048x1_S16x626x2048_0_1_n_n_1_2_161_wf
def dot_S1025x2048_S16x626x2048_S1025x16x626_1_2_0_01_n_n : DotDims S1025x2048 S16x626x2048 S1025x16x626 where
  lhsContracting := [1]
  rhsContracting := [2]
  lhsNonContracting := [0]
  rhsNonContracting := [0, 1]
  lhsBatch := []
  rhsBatch := []
  wf := dot_S1025x2048_S16x626x2048_S1025x16x626_1_2_0_01_n_n_wf

class Facts : Prop extends Facts₀ where

variable [Facts]
-- ==== Proof.KernelPayload.lean ====
/-
  What one grid step of the kernel stores, read at an index.

  At grid step `b` the kernel holds one signal's frames `fr : [1, 626, 2048]` and the two weight matrices
  `w : [1025, 2048]`. It drops the leading unit axis of the frames, multiplies `w` by the frames' transpose
  on the matrix unit (a contraction over the tap axis, axis 1 of both operands) into a zero accumulator, and
  puts the unit axis back. At the ideal values the matrix product is the finite sum of the operands' products
  along the contracted axis, and the zero accumulator adds nothing; the contraction index has one coordinate,
  the tap `k`; the left operand is read at `(f, k)`, the right one at `(t, k)`. So the stored value at
  `(0, f, t)` is `∑ₖ w[f, k] · fr[0, t, k]`. The real and the imaginary part are the same computation on two
  weight matrices.
-/
import proofs.«118406_j60258391162989_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Step

open Cert.KernelIdeal Cert.KernelIdeal.Gen Idealize.ShloMosaic Idealize.ShloMosaic.ValueIdx

/-! Which coordinate of the result, or of the contraction index, each operand axis reads. -/

theorem lhs_0 (i : S1025x626.Idx) (q : dot_S1025x2048_S626x2048_S1025x626_1_1_0_0_n_n.contr.Idx) :
    (dot_S1025x2048_S626x2048_S1025x626_1_1_0_0_n_n.lhsIdx i q 0).val = (i 0).val := by
  unfold DotDims.lhsIdx
  rw [dif_neg (show ¬(0 : Fin S1025x2048.rank) ∈ dot_S1025x2048_S626x2048_S1025x626_1_1_0_0_n_n.lhsBatch by decide), dif_pos (show (0 : Fin S1025x2048.rank) ∈ dot_S1025x2048_S626x2048_S1025x626_1_1_0_0_n_n.lhsNonContracting by decide)]
  rfl

theorem lhs_1 (i : S1025x626.Idx) (q : dot_S1025x2048_S626x2048_S1025x626_1_1_0_0_n_n.contr.Idx) :
    (dot_S1025x2048_S626x2048_S1025x626_1_1_0_0_n_n.lhsIdx i q 1).val = (q ⟨0, by decide⟩).val :=
  dot_S1025x2048_S626x2048_S1025x626_1_1_0_0_n_n.lhsIdx_val_of_single rfl i q

theorem rhs_0 (i : S1025x626.Idx) (q : dot_S1025x2048_S626x2048_S1025x626_1_1_0_0_n_n.contr.Idx) :
    (dot_S1025x2048_S626x2048_S1025x626_1_1_0_0_n_n.rhsIdx i q 0).val = (i 1).val := by
  unfold DotDims.rhsIdx
  rw [dif_neg (show ¬(0 : Fin S626x2048.rank) ∈ dot_S1025x2048_S626x2048_S1025x626_1_1_0_0_n_n.rhsBatch by decide), dif_pos (show (0 : Fin S626x2048.rank) ∈ dot_S1025x2048_S626x2048_S1025x626_1_1_0_0_n_n.rhsNonContracting by decide)]
  rfl

theorem rhs_1 (i : S1025x626.Idx) (q : dot_S1025x2048_S626x2048_S1025x626_1_1_0_0_n_n.contr.Idx) :
    (dot_S1025x2048_S626x2048_S1025x626_1_1_0_0_n_n.rhsIdx i q 1).val = (q ⟨0, by decide⟩).val :=
  dot_S1025x2048_S626x2048_S1025x626_1_1_0_0_n_n.rhsIdx_val_of_single rfl i q

/-- The matrix product into a zero accumulator, at `(f, t)`: the sum over the taps of `w[f, k] · x[t, k]`. -/
theorem product_apply (w : FVec Ideal S1025x2048 .bf16) (x : FVec Ideal S626x2048 .bf16) (f : Fin 1025) (t : Fin 626) :
    matmul (F := Ideal) dot_S1025x2048_S626x2048_S1025x626_1_1_0_0_n_n none w x (constant S1025x626 .f32 0x00000000#32) (ix2 f t)
      = ∑ k : Fin 2048, w (ix2 f k) * x (ix2 t k) := by
  simp only [matmul]
  rw [Ideal.matmul_constant_zero_apply, ← Equiv.sum_comp (contrEquiv1 dot_S1025x2048_S626x2048_S1025x626_1_1_0_0_n_n 2048 rfl rfl).symm]
  refine Finset.sum_congr rfl fun k _ => ?_
  have hk := contrEquiv1_symm_val dot_S1025x2048_S626x2048_S1025x626_1_1_0_0_n_n 2048 rfl rfl k
  have el : dot_S1025x2048_S626x2048_S1025x626_1_1_0_0_n_n.lhsIdx (ix2 f t) ((contrEquiv1 dot_S1025x2048_S626x2048_S1025x626_1_1_0_0_n_n 2048 rfl rfl).symm k) = ix2 f k := funext fun a => Fin.ext (by
    match a with
    | ⟨0, _⟩ => exact lhs_0 _ _
    | ⟨1, _⟩ => exact (lhs_1 _ _).trans hk)
  have er : dot_S1025x2048_S626x2048_S1025x626_1_1_0_0_n_n.rhsIdx (ix2 f t) ((contrEquiv1 dot_S1025x2048_S626x2048_S1025x626_1_1_0_0_n_n 2048 rfl rfl).symm k) = ix2 t k := funext fun a => Fin.ext (by
    match a with
    | ⟨0, _⟩ => exact rhs_0 _ _
    | ⟨1, _⟩ => exact (rhs_1 _ _).trans hk)
  rw [el, er]

/-- The real part's stored value at `(u, f, t)`. -/
theorem real_apply (fr : Vec Ideal S1x626x2048 .bf16) (w : Vec Ideal S1025x2048 .bf16) (u : Fin 1) (f : Fin 1025) (t : Fin 626) :
    k0_pay2 (F := Ideal) fr w (ix3 u f t) = ∑ k : Fin 2048, (w (ix2 f k) : EReal) * (fr (ix3 (0 : Fin 1) t k) : EReal) := by
  unfold k0_pay2 k0_pay1
  rw [shapeCast_ab_1ab_apply, product_apply]
  refine Finset.sum_congr rfl fun k _ => ?_
  rw [shapeCast_self, shapeCast_1ab_ab_apply]

/-- The imaginary part's stored value at `(u, f, t)`. -/
theorem imag_apply (fr : Vec Ideal S1x626x2048 .bf16) (w : Vec Ideal S1025x2048 .bf16) (u : Fin 1) (f : Fin 1025) (t : Fin 626) :
    k0_pay3 (F := Ideal) fr w (ix3 u f t) = ∑ k : Fin 2048, (w (ix2 f k) : EReal) * (fr (ix3 (0 : Fin 1) t k) : EReal) := by
  unfold k0_pay3 k0_pay1
  rw [shapeCast_ab_1ab_apply, product_apply]
  refine Finset.sum_congr rfl fun k _ => ?_
  rw [shapeCast_self, shapeCast_1ab_ab_apply]

end Cert.KernelIdeal.Step

end
-- ==== Proof.Spec.lean ====
/-
  The short-time Fourier transform as one function of its two operands.

  A batch of 16 signals is cut into 626 overlapping frames of 2048 taps each; a frame's spectrum at
  frequency bin `f` is the inner product of the frame with row `f` of a 1025 × 2048 matrix of windowed
  DFT weights (one matrix for the real part, one for the imaginary part). Over the extended reals an entry
  of the result is therefore one finite sum of products, and nothing else: no law beyond the definition of
  the sum is needed to compare two programs that both compute it.
-/
import Idealize.ShloMosaic.PureOps.Ideal
import Idealize.ShloMosaic.Lib.ValueIdx

noncomputable section

namespace Cert.Stft

open Idealize.ShloMosaic Idealize.ShloMosaic.ValueIdx

/-- One entry of the transform: `∑ₖ w[f, k] · fr[b, t, k]`, the inner product over the 2048 taps of weight
    row `f` with frame `t` of signal `b`. -/
def bin (w : (⟨2, ![1025, 2048]⟩ : Shape).Idx → EReal) (fr : (⟨3, ![16, 626, 2048]⟩ : Shape).Idx → EReal)
    (b : Fin 16) (f : Fin 1025) (t : Fin 626) : EReal :=
  ∑ k : Fin 2048, w (ix2 f k) * fr (ix3 b t k)

/-- The whole transform, laid out signal × frequency bin × frame. -/
def spectrum (w : (⟨2, ![1025, 2048]⟩ : Shape).Idx → EReal) (fr : (⟨3, ![16, 626, 2048]⟩ : Shape).Idx → EReal) :
    (⟨3, ![16, 1025, 626]⟩ : Shape).Idx → EReal :=
  fun i => bin w fr (i 0) (i 1) (i 2)

theorem spectrum_apply (w : (⟨2, ![1025, 2048]⟩ : Shape).Idx → EReal) (fr : (⟨3, ![16, 626, 2048]⟩ : Shape).Idx → EReal)
    (b : Fin 16) (f : Fin 1025) (t : Fin 626) : spectrum w fr (ix3 b f t) = bin w fr b f t := rfl

end Cert.Stft

end
-- ==== Proof.KernelArray.lean ====
/-
  The kernel's two output arrays as functions of its arguments.

  The kernel's grid has 16 steps, one per signal. Step `b` is handed block `b` of the frames (one signal's
  626 × 2048 frames) and both weight matrices whole, and writes block `b` of each output (one signal's
  1025 × 626 spectrum). What a step stores is the inner product of weight rows with frames (the module on
  the stored values); block `b` of the frames read at `(0, t, k)` is the frames at `(b, t, k)`; and the 16
  output blocks tile the output. So each output array ends holding the transform of its weight matrix and the
  frames, as the region finds those arrays. Before the region the host operations prepare the frames from
  the signal and change the three arrays' format, which at the ideal values changes nothing.
-/
import proofs.«118406_j60258391162989_1_alg».proof.Proof.Gen.KernelIdeal.Value
import proofs.«118406_j60258391162989_1_alg».proof.Proof.KernelPayload
import proofs.«118406_j60258391162989_1_alg».proof.Proof.Spec
import Idealize.ShloMosaic.Lib.Pipeline.Value
import Idealize.ShloMosaic.Lib.StableHlo.Run

noncomputable section

namespace Cert.KernelIdeal.Hand

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Idealize.ShloMosaic.Pipeline (Dat)

section Framing
variable {F : FTy → Type} [FloatOps F]

/-! ## The framing, as one function of the signal

Both programs prepare the frames by the same host operations: the signal `x : [16, 320000]` is extended by
reflection, 1024 samples on each side (the left piece is samples 1 … 1024 reversed, the right piece the last 1024
samples before the final one reversed), and frame `t` gathers the 2048 samples of the extended signal from
position `512·t` on. The position table is an integer computation that does not involve the signal. Nothing below
ever looks inside these operations: the frames enter the transform as one array. -/

/-- The signal with its left reflection in front: `[16, 1024 + 320000]`. -/
def reflectedLeft (x : FVec F S16x320000 .f32) : FVec F S16x321024 .f32 :=
  concatenate S16x321024 1 [⟨S16x1024, Host.reverse [1] (extractStridedSlice S16x1024 ![0, 1] x slices_S16x320000_S16x1024_0_1)⟩, ⟨S16x320000, x⟩] concatenates_S16x1024_S16x320000_S16x321024_d1

/-- The signal reflected on both sides: `[16, 1024 + 320000 + 1024]`. -/
def reflected (x : FVec F S16x320000 .f32) : FVec F S16x322048 .f32 :=
  concatenate S16x322048 1 [⟨S16x321024, reflectedLeft x⟩, ⟨S16x1024, Host.reverse [1] (extractStridedSlice S16x1024 ![0, 319999] (reflectedLeft x) slices_S16x321024_S16x1024_0_319999)⟩] concatenates_S16x321024_S16x1024_S16x322048_d1

/-- Sample positions before the wrap of negative ones: `512·t + n` at `(t, n)`. -/
def framePos : IVec S626x2048 32 :=
  addi (broadcastInDim S626x2048 ![0, 1] bcast_S626x1_S626x2048_0_1 (muli (broadcastInDim S626x1 ![0] bcast_S626_S626x1_0 (iotaInDim S626 32 0)) (broadcastInDim S626x1 ![] bcast_S_S626x1 (constantI S_ 32 512#32))))
    (broadcastInDim S626x2048 ![0, 1] bcast_S1x2048_S626x2048_0_1 (broadcastInDim S1x2048 ![1] bcast_S2048_S1x2048_1 (iotaInDim S2048 32 0)))

/-- The table of sample positions the gather reads, `[626, 2048, 1]`: a negative position is wrapped by the length. -/
def frameTable : IVec S626x2048x1 32 :=
  broadcastInDim S626x2048x1 ![0, 1] bcast_S626x2048_S626x2048x1_0_1
    (select (cmpi .slt framePos (broadcastInDim S626x2048 ![] bcast_S_S626x2048 (constantI S_ 32 0#32)))
      (addi framePos (broadcastInDim S626x2048 ![] bcast_S_S626x2048 (constantI S_ 32 322048#32))) framePos)

/-- The frames `[16, 626, 2048]` of a signal. -/
def frames (x : FVec F S16x320000 .f32) : FVec F S16x626x2048 .f32 :=
  Host.gather gather_S16x322048_S626x2048x1_S16x626x2048_0_1_n_n_1_2_161 (reflected x) frameTable

end Framing

variable (m : (ℓ : Loc nD τ sig) → Buf (Elt Ideal) ℓ) (ρ : Dev nD → PrngReg)

/-! ## The arrays as the region finds them -/

/-- The frames in the kernel's input format. -/
abbrev framesArr (c : Dev nD) : Vec Ideal S16x626x2048 .bf16 := V m c main_v17
/-- The real part's weights in the kernel's input format. -/
abbrev realW (c : Dev nD) : Vec Ideal S1025x2048 .bf16 := V m c main_v18
/-- The imaginary part's weights in the kernel's input format. -/
abbrev imagW (c : Dev nD) : Vec Ideal S1025x2048 .bf16 := V m c main_v19

theorem hz3 : (![0, 0, 0] : Fin 3 → Nat) = fun _ => 0 := funext fun a => by fin_cases a <;> rfl
theorem hz2 : (![0, 0] : Fin 2 → Nat) = fun _ => 0 := funext fun a => by fin_cases a <;> rfl

/-- The block index of each window at grid step `t`: the frames' and the outputs' windows move along the
    signal axis with the step, the weights' windows stay. Decided over the 16 steps. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-- Block `t` of the frames at `(0, t', k)` is the frames at `(t, t', k)`. -/
theorem frames_block (c : Dev nD) (t : Fin cfg0.N) (y : S1x626x2048.Idx) (i : S16x626x2048.Idx)
    (h0 : (i 0).val = t.val) (h1 : (i 1).val = (y 1).val) (h2 : (i 2).val = (y 2).val) :
    (iblk m c 0 t : Vec Ideal S1x626x2048 .bf16) y = framesArr m c i := by
  have e := idx_facts t
  have hy0 : (y 0).val < 1 := (y 0).isLt
  show V m c main_v17 (((cfg0.win 0).blk t).view.emb y) = V m c main_v17 i
  refine congrArg (V m c main_v17) (funext fun a => Fin.ext ?_)
  match a with
  | ⟨0, _⟩ => show win0_0.index t (0 : Fin 3) * 1 + 1 * (y 0).val = (i 0).val; omega
  | ⟨1, _⟩ => show win0_0.index t (1 : Fin 3) * 626 + 1 * (y 1).val = (i 1).val; omega
  | ⟨2, _⟩ => show win0_0.index t (2 : Fin 3) * 2048 + 1 * (y 2).val = (i 2).val; omega

/-! ## The real part -/

/-- One grid step's real part against the transform: if the step's weight block is the matrix `W` and its
    frame block is signal `b` of `Fr`, the stored value at `y` is the transform of `W` and `Fr` at the array index
    `i` with the same frequency bin and frame and with signal `b`. -/
theorem real_step (fr : Vec Ideal S1x626x2048 .bf16) (w : Vec Ideal S1025x2048 .bf16)
    (W : Vec Ideal S1025x2048 .bf16) (Fr : Vec Ideal S16x626x2048 .bf16) (b : Fin 16)
    (hw : ∀ (f : Fin 1025) (k : Fin 2048), w (ix2 f k) = W (ix2 f k))
    (hfr : ∀ (t' : Fin 626) (k : Fin 2048), fr (ix3 (0 : Fin 1) t' k) = Fr (ix3 b t' k))
    (y : S1x1025x626.Idx) (i : S16x1025x626.Idx) (h0 : (i 0).val = b.val) (h1 : (i 1).val = (y 1).val) (h2 : (i 2).val = (y 2).val) :
    k0_pay2 (F := Ideal) fr w y = Cert.Stft.spectrum W Fr i := by
  obtain ⟨u, f, t', rfl⟩ : ∃ (u : Fin 1) (f : Fin 1025) (t' : Fin 626), y = ix3 u f t' := ⟨y 0, y 1, y 2, eq_ix3 y⟩
  obtain ⟨b', f', t'', rfl⟩ : ∃ (b' : Fin 16) (f' : Fin 1025) (t'' : Fin 626), i = ix3 b' f' t'' := ⟨i 0, i 1, i 2, eq_ix3 i⟩
  obtain rfl : b' = b := Fin.ext h0
  obtain rfl : f' = f := Fin.ext h1
  obtain rfl : t'' = t' := Fin.ext h2
  rw [Step.real_apply, Cert.Stft.spectrum_apply]
  unfold Cert.Stft.bin
  exact Finset.sum_congr rfl fun k _ => by rw [hw, hfr]

/-- The real weights' window holds the whole matrix at every grid step. -/
theorem real_weights_block (c : Dev nD) (t : Fin cfg0.N) (y : S1025x2048.Idx) :
    (iblk m c 1 t : Vec Ideal S1025x2048 .bf16) y = realW m c y := by
  have e := idx_facts t
  show V m c main_v18 (((cfg0.win 1).blk t).view.emb y) = V m c main_v18 y
  refine congrArg (V m c main_v18) (funext fun a => Fin.ext ?_)
  match a with
  | ⟨0, _⟩ => show win0_1.index t (0 : Fin 2) * 1025 + 1 * (y 0).val = (y 0).val; omega
  | ⟨1, _⟩ => show win0_1.index t (1 : Fin 2) * 2048 + 1 * (y 1).val = (y 1).val; omega

/-- What grid step `t` writes back to the real output is block `t` of the transform of the real weights and
    the frames, as the region finds them. -/
theorem real_flushed (c : Dev nD) (t : Fin cfg0.N) :
    (dats m 0 c).flushed 3 t = ((cfg0.win 3).blk t).view.read (Elt Ideal) (Cert.Stft.spectrum (realW m c) (framesArr m c)) := by
  rw [Value.flushed3]
  unfold out0_3
  rw [View.canon_unit_zero hz3]
  simp only [View.ld_unit_zero (S := S1x626x2048) hz3, View.ld_unit_zero (S := S1025x2048) hz2]
  have e := idx_facts t
  have hN : cfg0.N = 16 := N_0
  have ht : t.val < 16 := hN ▸ t.isLt
  funext j
  have hj0 : (j 0).val < 1 := (j 0).isLt
  show k0_pay2 (iblk m c 0 t) (iblk m c 1 t) j = Cert.Stft.spectrum (realW m c) (framesArr m c) (((cfg0.win 3).blk t).view.emb j)
  refine real_step (iblk m c 0 t) (iblk m c 1 t) (realW m c) (framesArr m c) ⟨t.val, ht⟩
    (fun f k => real_weights_block m c t (ix2 f k)) (fun t' k => frames_block m c t (ix3 (0 : Fin 1) t' k) (ix3 ⟨t.val, ht⟩ t' k) rfl rfl rfl)
    j (((cfg0.win 3).blk t).view.emb j) ?_ ?_ ?_
  · show win0_3.index t (0 : Fin 3) * 1 + 1 * (j 0).val = t.val; omega
  · show win0_3.index t (1 : Fin 3) * 1025 + 1 * (j 1).val = (j 1).val; omega
  · show win0_3.index t (2 : Fin 3) * 626 + 1 * (j 2).val = (j 2).val; omega

/-- An index of the real output is in step `t`'s block iff each coordinate is in the block's range on its axis. -/
theorem real_mem_block (t : Fin cfg0.N) (i : S16x1025x626.Idx) :
    i ∈ ((cfg0.win 3).blk t).view.set ↔ ∀ a : Fin 3, win0_3.index t a * S1x1025x626.size a ≤ (i a).val ∧ (i a).val < win0_3.index t a * S1x1025x626.size a + S1x1025x626.size a := by
  show i ∈ ((View.whole main_v20_0).slice (win0_3.rect t)).set ↔ _
  rw [View.set_slice_whole, Rect.mem_set_unit]
  exact Iff.rfl

/-- Every index of the real output is written: signal `b`'s entries by grid step `b`. -/
theorem real_covered (i : S16x1025x626.Idx) :
    ∃ t : Fin cfg0.N, (cfg0.win 3).flush t = true ∧ i ∈ ((cfg0.win 3).blk t).view.set := by
  have hN : cfg0.N = 16 := N_0
  have hi0 : (i 0).val < 16 := (i 0).isLt
  have hi1 : (i 1).val < 1025 := (i 1).isLt
  have hi2 : (i 2).val < 626 := (i 2).isLt
  have hlt : (i 0).val < cfg0.N := by omega
  refine ⟨⟨(i 0).val, hlt⟩, flush0_3 _, ?_⟩
  rw [real_mem_block]
  have e := idx_facts ⟨(i 0).val, hlt⟩
  have et : (⟨(i 0).val, hlt⟩ : Fin cfg0.N).val = (i 0).val := rfl
  intro a
  match a with
  | ⟨0, _⟩ => show win0_3.index ⟨(i 0).val, hlt⟩ (0 : Fin 3) * 1 ≤ (i 0).val ∧ (i 0).val < win0_3.index ⟨(i 0).val, hlt⟩ (0 : Fin 3) * 1 + 1; omega
  | ⟨1, _⟩ => show win0_3.index ⟨(i 0).val, hlt⟩ (1 : Fin 3) * 1025 ≤ (i 1).val ∧ (i 1).val < win0_3.index ⟨(i 0).val, hlt⟩ (1 : Fin 3) * 1025 + 1025; omega
  | ⟨2, _⟩ => show win0_3.index ⟨(i 0).val, hlt⟩ (2 : Fin 3) * 626 ≤ (i 2).val ∧ (i 2).val < win0_3.index ⟨(i 0).val, hlt⟩ (2 : Fin 3) * 626 + 626; omega

/-- So the real output array ends holding the transform. -/
theorem real_final (c : Dev nD) : (dats m 0 c).arrAt 3 cfg0.N = Cert.Stft.spectrum (realW m c) (framesArr m c) :=
  (dats m 0 c).arrAt_eq_of_cover 3 (Cert.Stft.spectrum (realW m c) (framesArr m c)) (fun t _ => real_flushed m c t) real_covered

/-! ## The imaginary part -/

/-- One grid step's imag part against the transform: if the step's weight block is the matrix `W` and its
    frame block is signal `b` of `Fr`, the stored value at `y` is the transform of `W` and `Fr` at the array index
    `i` with the same frequency bin and frame and with signal `b`. -/
theorem imag_step (fr : Vec Ideal S1x626x2048 .bf16) (w : Vec Ideal S1025x2048 .bf16)
    (W : Vec Ideal S1025x2048 .bf16) (Fr : Vec Ideal S16x626x2048 .bf16) (b : Fin 16)
    (hw : ∀ (f : Fin 1025) (k : Fin 2048), w (ix2 f k) = W (ix2 f k))
    (hfr : ∀ (t' : Fin 626) (k : Fin 2048), fr (ix3 (0 : Fin 1) t' k) = Fr (ix3 b t' k))
    (y : S1x1025x626.Idx) (i : S16x1025x626.Idx) (h0 : (i 0).val = b.val) (h1 : (i 1).val = (y 1).val) (h2 : (i 2).val = (y 2).val) :
    k0_pay3 (F := Ideal) fr w y = Cert.Stft.spectrum W Fr i := by
  obtain ⟨u, f, t', rfl⟩ : ∃ (u : Fin 1) (f : Fin 1025) (t' : Fin 626), y = ix3 u f t' := ⟨y 0, y 1, y 2, eq_ix3 y⟩
  obtain ⟨b', f', t'', rfl⟩ : ∃ (b' : Fin 16) (f' : Fin 1025) (t'' : Fin 626), i = ix3 b' f' t'' := ⟨i 0, i 1, i 2, eq_ix3 i⟩
  obtain rfl : b' = b := Fin.ext h0
  obtain rfl : f' = f := Fin.ext h1
  obtain rfl : t'' = t' := Fin.ext h2
  rw [Step.imag_apply, Cert.Stft.spectrum_apply]
  unfold Cert.Stft.bin
  exact Finset.sum_congr rfl fun k _ => by rw [hw, hfr]

/-- The imag weights' window holds the whole matrix at every grid step. -/
theorem imag_weights_block (c : Dev nD) (t : Fin cfg0.N) (y : S1025x2048.Idx) :
    (iblk m c 2 t : Vec Ideal S1025x2048 .bf16) y = imagW m c y := by
  have e := idx_facts t
  show V m c main_v19 (((cfg0.win 2).blk t).view.emb y) = V m c main_v19 y
  refine congrArg (V m c main_v19) (funext fun a => Fin.ext ?_)
  match a with
  | ⟨0, _⟩ => show win0_2.index t (0 : Fin 2) * 1025 + 1 * (y 0).val = (y 0).val; omega
  | ⟨1, _⟩ => show win0_2.index t (1 : Fin 2) * 2048 + 1 * (y 1).val = (y 1).val; omega

/-- What grid step `t` writes back to the imag output is block `t` of the transform of the imag weights and
    the frames, as the region finds them. -/
theorem imag_flushed (c : Dev nD) (t : Fin cfg0.N) :
    (dats m 0 c).flushed 4 t = ((cfg0.win 4).blk t).view.read (Elt Ideal) (Cert.Stft.spectrum (imagW m c) (framesArr m c)) := by
  rw [Value.flushed4]
  unfold out0_4
  rw [View.canon_unit_zero hz3]
  simp only [View.ld_unit_zero (S := S1x626x2048) hz3, View.ld_unit_zero (S := S1025x2048) hz2]
  have e := idx_facts t
  have hN : cfg0.N = 16 := N_0
  have ht : t.val < 16 := hN ▸ t.isLt
  funext j
  have hj0 : (j 0).val < 1 := (j 0).isLt
  show k0_pay3 (iblk m c 0 t) (iblk m c 2 t) j = Cert.Stft.spectrum (imagW m c) (framesArr m c) (((cfg0.win 4).blk t).view.emb j)
  refine imag_step (iblk m c 0 t) (iblk m c 2 t) (imagW m c) (framesArr m c) ⟨t.val, ht⟩
    (fun f k => imag_weights_block m c t (ix2 f k)) (fun t' k => frames_block m c t (ix3 (0 : Fin 1) t' k) (ix3 ⟨t.val, ht⟩ t' k) rfl rfl rfl)
    j (((cfg0.win 4).blk t).view.emb j) ?_ ?_ ?_
  · show win0_4.index t (0 : Fin 3) * 1 + 1 * (j 0).val = t.val; omega
  · show win0_4.index t (1 : Fin 3) * 1025 + 1 * (j 1).val = (j 1).val; omega
  · show win0_4.index t (2 : Fin 3) * 626 + 1 * (j 2).val = (j 2).val; omega

/-- An index of the imag output is in step `t`'s block iff each coordinate is in the block's range on its axis. -/
theorem imag_mem_block (t : Fin cfg0.N) (i : S16x1025x626.Idx) :
    i ∈ ((cfg0.win 4).blk t).view.set ↔ ∀ a : Fin 3, win0_4.index t a * S1x1025x626.size a ≤ (i a).val ∧ (i a).val < win0_4.index t a * S1x1025x626.size a + S1x1025x626.size a := by
  show i ∈ ((View.whole main_v20_1).slice (win0_4.rect t)).set ↔ _
  rw [View.set_slice_whole, Rect.mem_set_unit]
  exact Iff.rfl

/-- Every index of the imag output is written: signal `b`'s entries by grid step `b`. -/
theorem imag_covered (i : S16x1025x626.Idx) :
    ∃ t : Fin cfg0.N, (cfg0.win 4).flush t = true ∧ i ∈ ((cfg0.win 4).blk t).view.set := by
  have hN : cfg0.N = 16 := N_0
  have hi0 : (i 0).val < 16 := (i 0).isLt
  have hi1 : (i 1).val < 1025 := (i 1).isLt
  have hi2 : (i 2).val < 626 := (i 2).isLt
  have hlt : (i 0).val < cfg0.N := by omega
  refine ⟨⟨(i 0).val, hlt⟩, flush0_4 _, ?_⟩
  rw [imag_mem_block]
  have e := idx_facts ⟨(i 0).val, hlt⟩
  have et : (⟨(i 0).val, hlt⟩ : Fin cfg0.N).val = (i 0).val := rfl
  intro a
  match a with
  | ⟨0, _⟩ => show win0_4.index ⟨(i 0).val, hlt⟩ (0 : Fin 3) * 1 ≤ (i 0).val ∧ (i 0).val < win0_4.index ⟨(i 0).val, hlt⟩ (0 : Fin 3) * 1 + 1; omega
  | ⟨1, _⟩ => show win0_4.index ⟨(i 0).val, hlt⟩ (1 : Fin 3) * 1025 ≤ (i 1).val ∧ (i 1).val < win0_4.index ⟨(i 0).val, hlt⟩ (1 : Fin 3) * 1025 + 1025; omega
  | ⟨2, _⟩ => show win0_4.index ⟨(i 0).val, hlt⟩ (2 : Fin 3) * 626 ≤ (i 2).val ∧ (i 2).val < win0_4.index ⟨(i 0).val, hlt⟩ (2 : Fin 3) * 626 + 626; omega

/-- So the imag output array ends holding the transform. -/
theorem imag_final (c : Dev nD) : (dats m 0 c).arrAt 4 cfg0.N = Cert.Stft.spectrum (imagW m c) (framesArr m c) :=
  (dats m 0 c).arrAt_eq_of_cover 4 (Cert.Stft.spectrum (imagW m c) (framesArr m c)) (fun t _ => imag_flushed m c t) imag_covered

end Cert.KernelIdeal.Hand

end
-- ==== Proof.KernelRun.lean ====
/-
  The kernel's program, run and read as a function of its arguments.

  When the kernel's region is entered the host operations before it have run: the frames array is the signal's
  frames changed to the kernel's input format, and the two weight arrays are the arguments changed to that
  format. At the ideal values a change of format is the identity. With the module on the output arrays this
  gives the run: each output ends holding the transform of its weight argument and the signal's frames.
-/
import proofs.«118406_j60258391162989_1_alg».proof.Proof.KernelArray

noncomputable section

namespace Cert.KernelIdeal.Hand

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Idealize.ShloMosaic.Pipeline (Dat)

section Entry
variable {F : FTy → Type} [FloatOps F]
variable (m : (ℓ : Loc nD τ sig) → Buf (Elt F) ℓ)

set_option maxHeartbeats 4000000 in
/-- At the region's entry the frames array is the signal's frames in the kernel's input format. -/
theorem entry_frames (c : Dev nD) :
    V m c main_v17 = truncf .bf16 (frames (m ((c : Thread nD τ).loc main_arg0))) bitsLt_bf16_f32 := by
  dsimp only [V]
  simp only [hostOps0, hostOps0_1, hostOps0_2, List.flatten_cons, List.flatten_nil, List.append_nil, List.cons_append, List.nil_append]
  after_results_simp <;> (try simp only [TRef.ofBuf, TRef.toBuf, cast_eq]) <;> rfl

set_option maxHeartbeats 4000000 in
/-- At the region's entry the real part's weight array is the argument in the kernel's input format. -/
theorem entry_realW (c : Dev nD) :
    V m c main_v18 = truncf .bf16 (m ((c : Thread nD τ).loc main_arg1)) bitsLt_bf16_f32 := by
  dsimp only [V]
  simp only [hostOps0, hostOps0_1, hostOps0_2, List.flatten_cons, List.flatten_nil, List.append_nil, List.cons_append, List.nil_append]
  after_results_simp <;> (try simp only [TRef.ofBuf, TRef.toBuf, cast_eq]) <;> rfl

set_option maxHeartbeats 4000000 in
/-- At the region's entry the imaginary part's weight array is the argument in the kernel's input format. -/
theorem entry_imagW (c : Dev nD) :
    V m c main_v19 = truncf .bf16 (m ((c : Thread nD τ).loc main_arg2)) bitsLt_bf16_f32 := by
  dsimp only [V]
  simp only [hostOps0, hostOps0_1, hostOps0_2, List.flatten_cons, List.flatten_nil, List.append_nil, List.cons_append, List.nil_append]
  after_results_simp <;> (try simp only [TRef.ofBuf, TRef.toBuf, cast_eq]) <;> rfl

end Entry

variable (m : (ℓ : Loc nD τ sig) → Buf (Elt Ideal) ℓ) (ρ : Dev nD → PrngReg)

/-- At the ideal values a change to the narrower format is the identity, on an array as on each entry. -/
theorem narrow_eq {s : Shape} (a : FVec Ideal s .f32) (h : FTy.bits .bf16 < FTy.bits .f32) :
    (truncf .bf16 a h : s.Idx → EReal) = a :=
  funext fun i => truncf_apply a h i

/-- At the ideal values the frames array is the signal's frames. -/
theorem framesArr_eq (c : Dev nD) : framesArr m c = frames (F := Ideal) (m ((c : Thread nD τ).loc main_arg0)) := by
  show V m c main_v17 = _
  rw [entry_frames]
  exact narrow_eq _ _

/-- At the ideal values the real part's weight array is the argument. -/
theorem realW_eq (c : Dev nD) : realW m c = m ((c : Thread nD τ).loc main_arg1) := by
  show V m c main_v18 = _
  rw [entry_realW]
  exact narrow_eq _ _

/-- At the ideal values the imaginary part's weight array is the argument. -/
theorem imagW_eq (c : Dev nD) : imagW m c = m ((c : Thread nD τ).loc main_arg2) := by
  show V m c main_v19 = _
  rw [entry_imagW]
  exact narrow_eq _ _

/-- The kernel's run: each output array ends holding the transform of its weight argument and the signal's
    frames, and the arguments are as launched. -/
theorem run : θ_run defs (onTc (τ := τ) (main (F := Ideal))) ⟨m, fun _ => 0, ρ⟩ fun r => ∀ c : Dev nD,
      r.2.mem ((c : Thread nD τ).loc main_v20_0) = Cert.Stft.spectrum (m ((c : Thread nD τ).loc main_arg1)) (frames (F := Ideal) (m ((c : Thread nD τ).loc main_arg0)))
      ∧ r.2.mem ((c : Thread nD τ).loc main_v20_1) = Cert.Stft.spectrum (m ((c : Thread nD τ).loc main_arg2)) (frames (F := Ideal) (m ((c : Thread nD τ).loc main_arg0)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((real_final m c).trans (by rw [realW_eq, framesArr_eq])),
      (h c).2.1.trans ((imag_final m c).trans (by rw [imagW_eq, framesArr_eq])),
      (h c).2.2⟩)
    (Value.run_blocks m ρ)

end Cert.KernelIdeal.Hand

end
-- ==== Proof.RefRun.lean ====
/-
  The reference program, run.

  The reference has no kernel: its entry point is a straight line of 32 host operations once the two helper
  functions it calls (the reflection padding, and the reversal that padding uses twice) are written out at
  their call sites. Every weakly fair execution of such a line terminates, and leaves in each buffer the
  composition of the operations that feed it, applied to the argument arrays. Read at the two result buffers:
  each is the weight matrix contracted with the signal's frames over the tap axis, with the first two axes of
  the product exchanged.
-/
import proofs.«118406_j60258391162989_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The framing, as one function of the signal

Both programs prepare the frames by the same host operations: the signal `x : [16, 320000]` is extended by
reflection, 1024 samples on each side (the left piece is samples 1 … 1024 reversed, the right piece the last 1024
samples before the final one reversed), and frame `t` gathers the 2048 samples of the extended signal from
position `512·t` on. The position table is an integer computation that does not involve the signal. Nothing below
ever looks inside these operations: the frames enter the transform as one array. -/

/-- The signal with its left reflection in front: `[16, 1024 + 320000]`. -/
def reflectedLeft (x : FVec F S16x320000 .f32) : FVec F S16x321024 .f32 :=
  concatenate S16x321024 1 [⟨S16x1024, Host.reverse [1] (extractStridedSlice S16x1024 ![0, 1] x slices_S16x320000_S16x1024_0_1)⟩, ⟨S16x320000, x⟩] concatenates_S16x1024_S16x320000_S16x321024_d1

/-- The signal reflected on both sides: `[16, 1024 + 320000 + 1024]`. -/
def reflected (x : FVec F S16x320000 .f32) : FVec F S16x322048 .f32 :=
  concatenate S16x322048 1 [⟨S16x321024, reflectedLeft x⟩, ⟨S16x1024, Host.reverse [1] (extractStridedSlice S16x1024 ![0, 319999] (reflectedLeft x) slices_S16x321024_S16x1024_0_319999)⟩] concatenates_S16x321024_S16x1024_S16x322048_d1

/-- Sample positions before the wrap of negative ones: `512·t + n` at `(t, n)`. -/
def framePos : IVec S626x2048 32 :=
  addi (broadcastInDim S626x2048 ![0, 1] bcast_S626x1_S626x2048_0_1 (muli (broadcastInDim S626x1 ![0] bcast_S626_S626x1_0 (iotaInDim S626 32 0)) (broadcastInDim S626x1 ![] bcast_S_S626x1 (constantI S_ 32 512#32))))
    (broadcastInDim S626x2048 ![0, 1] bcast_S1x2048_S626x2048_0_1 (broadcastInDim S1x2048 ![1] bcast_S2048_S1x2048_1 (iotaInDim S2048 32 0)))

/-- The table of sample positions the gather reads, `[626, 2048, 1]`: a negative position is wrapped by the length. -/
def frameTable : IVec S626x2048x1 32 :=
  broadcastInDim S626x2048x1 ![0, 1] bcast_S626x2048_S626x2048x1_0_1
    (select (cmpi .slt framePos (broadcastInDim S626x2048 ![] bcast_S_S626x2048 (constantI S_ 32 0#32)))
      (addi framePos (broadcastInDim S626x2048 ![] bcast_S_S626x2048 (constantI S_ 32 322048#32))) framePos)

/-- The frames `[16, 626, 2048]` of a signal. -/
def frames (x : FVec F S16x320000 .f32) : FVec F S16x626x2048 .f32 :=
  Host.gather gather_S16x322048_S626x2048x1_S16x626x2048_0_1_n_n_1_2_161 (reflected x) frameTable

/-! ## The entry point as a list of operations -/

/-- The 32 operations in program order: the padding's eight (two of them the reversals) after the first. -/
abbrev ops : List (HloOp τ sig (Elt F)) :=
  [ nullary main_c (constantI S_ 32 0#32),
    TRef.unary (.of main_arg0 : TRef sig ⟨S16x320000, .f32⟩) (.of main_call0_v0 : TRef sig ⟨S16x1, .f32⟩) (extractStridedSlice S16x1 ![0, 0] · slices_S16x320000_S16x1_0_0),
    TRef.unary (.of main_arg0 : TRef sig ⟨S16x320000, .f32⟩) (.of main_call0_v1 : TRef sig ⟨S16x1024, .f32⟩) (extractStridedSlice S16x1024 ![0, 1] · slices_S16x320000_S16x1024_0_1),
    TRef.unary (.of main_call0_v1 : TRef sig ⟨S16x1024, .f32⟩) (.of main_call0_v2 : TRef sig ⟨S16x1024, .f32⟩) (Host.reverse [1]),
    TRef.binary (.of main_call0_v2 : TRef sig ⟨S16x1024, .f32⟩) (.of main_arg0 : TRef sig ⟨S16x320000, .f32⟩) (.of main_call0_v3 : TRef sig ⟨S16x321024, .f32⟩) (fun a b => concatenate S16x321024 1 [⟨S16x1024, a⟩, ⟨S16x320000, b⟩] concatenates_S16x1024_S16x320000_S16x321024_d1),
    TRef.unary (.of main_call0_v3 : TRef sig ⟨S16x321024, .f32⟩) (.of main_call0_v4 : TRef sig ⟨S16x1, .f32⟩) (extractStridedSlice S16x1 ![0, 321023] · slices_S16x321024_S16x1_0_321023),
    TRef.unary (.of main_call0_v3 : TRef sig ⟨S16x321024, .f32⟩) (.of main_call0_v5 : TRef sig ⟨S16x1024, .f32⟩) (extractStridedSlice S16x1024 ![0, 319999] · slices_S16x321024_S16x1024_0_319999),
    TRef.unary (.of main_call0_v5 : TRef sig ⟨S16x1024, .f32⟩) (.of main_call0_v6 : TRef sig ⟨S16x1024, .f32⟩) (Host.reverse [1]),
    TRef.binary (.of main_call0_v3 : TRef sig ⟨S16x321024, .f32⟩) (.of main_call0_v6 : TRef sig ⟨S16x1024, .f32⟩) (.of main_v0 : TRef sig ⟨S16x322048, .f32⟩) (fun a b => concatenate S16x322048 1 [⟨S16x321024, a⟩, ⟨S16x1024, b⟩] concatenates_S16x321024_S16x1024_S16x322048_d1),
    nullary main_v1 (iotaInDim S626 32 0),
    unary main_v1 main_v2 (broadcastInDim S626x1 ![0] bcast_S626_S626x1_0 : (⟨S626, .i32⟩ : BufTy).Contents (Elt F) → (⟨S626x1, .i32⟩ : BufTy).Contents (Elt F)),
    nullary main_c_0 (constantI S_ 32 512#32),
    unary main_c_0 main_v3 (broadcastInDim S626x1 ![] bcast_S_S626x1 : (⟨S_, .i32⟩ : BufTy).Contents (Elt F) → (⟨S626x1, .i32⟩ : BufTy).Contents (Elt F)),
    binary main_v2 main_v3 main_v4 (muli : (⟨S626x1, .i32⟩ : BufTy).Contents (Elt F) → (⟨S626x1, .i32⟩ : BufTy).Contents (Elt F) → (⟨S626x1, .i32⟩ : BufTy).Contents (Elt F)),
    nullary main_v5 (iotaInDim S2048 32 0),
    unary main_v5 main_v6 (broadcastInDim S1x2048 ![1] bcast_S2048_S1x2048_1 : (⟨S2048, .i32⟩ : BufTy).Contents (Elt F) → (⟨S1x2048, .i32⟩ : BufTy).Contents (Elt F)),
    unary main_v4 main_v7 (broadcastInDim S626x2048 ![0, 1] bcast_S626x1_S626x2048_0_1 : (⟨S626x1, .i32⟩ : BufTy).Contents (Elt F) → (⟨S626x2048, .i32⟩ : BufTy).Contents (Elt F)),
    unary main_v6 main_v8 (broadcastInDim S626x2048 ![0, 1] bcast_S1x2048_S626x2048_0_1 : (⟨S1x2048, .i32⟩ : BufTy).Contents (Elt F) → (⟨S626x2048, .i32⟩ : BufTy).Contents (Elt F)),
    binary main_v7 main_v8 main_v9 (addi : (⟨S626x2048, .i32⟩ : BufTy).Contents (Elt F) → (⟨S626x2048, .i32⟩ : BufTy).Contents (Elt F) → (⟨S626x2048, .i32⟩ : BufTy).Contents (Elt F)),
    nullary main_c_1 (constantI S_ 32 0#32),
    unary main_c_1 main_v10 (broadcastInDim S626x2048 ![] bcast_S_S626x2048 : (⟨S_, .i32⟩ : BufTy).Contents (Elt F) → (⟨S626x2048, .i32⟩ : BufTy).Contents (Elt F)),
    binary main_v9 main_v10 main_v11 (cmpi .slt : (⟨S626x2048, .i32⟩ : BufTy).Contents (Elt F) → (⟨S626x2048, .i32⟩ : BufTy).Contents (Elt F) → (⟨S626x2048, .i1⟩ : BufTy).Contents (Elt F)),
    nullary main_c_2 (constantI S_ 32 322048#32),
    unary main_c_2 main_v12 (broadcastInDim S626x2048 ![] bcast_S_S626x2048 : (⟨S_, .i32⟩ : BufTy).Contents (Elt F) → (⟨S626x2048, .i32⟩ : BufTy).Contents (Elt F)),
    binary main_v9 main_v12 main_v13 (addi : (⟨S626x2048, .i32⟩ : BufTy).Contents (Elt F) → (⟨S626x2048, .i32⟩ : BufTy).Contents (Elt F) → (⟨S626x2048, .i32⟩ : BufTy).Contents (Elt F)),
    ternary main_v11 main_v13 main_v9 main_v14 (select : (⟨S626x2048, .i1⟩ : BufTy).Contents (Elt F) → (⟨S626x2048, .i32⟩ : BufTy).Contents (Elt F) → (⟨S626x2048, .i32⟩ : BufTy).Contents (Elt F) → (⟨S626x2048, .i32⟩ : BufTy).Contents (Elt F)),
    unary main_v14 main_v15 (broadcastInDim S626x2048x1 ![0, 1] bcast_S626x2048_S626x2048x1_0_1 : (⟨S626x2048, .i32⟩ : BufTy).Contents (Elt F) → (⟨S626x2048x1, .i32⟩ : BufTy).Contents (Elt F)),
    binary main_v0 main_v15 main_v16 ((fun x i => Host.gather gather_S16x322048_S626x2048x1_S16x626x2048_0_1_n_n_1_2_161 x i) : (⟨S16x322048, .f32⟩ : BufTy).Contents (Elt F) → (⟨S626x2048x1, .i32⟩ : BufTy).Contents (Elt F) → (⟨S16x626x2048, .f32⟩ : BufTy).Contents (Elt F)),
    binary main_arg1 main_v16 main_v17 ((fun l r => Host.dotGeneral dot_S1025x2048_S16x626x2048_S1025x16x626_1_2_0_01_n_n none l r) : (⟨S1025x2048, .f32⟩ : BufTy).Contents (Elt F) → (⟨S16x626x2048, .f32⟩ : BufTy).Contents (Elt F) → (⟨S1025x16x626, .f32⟩ : BufTy).Contents (Elt F)),
    unary main_v17 main_v18 ((transpose S16x1025x626 [1, 0, 2] · transposes_S1025x16x626_S16x1025x626_1_0_2) : (⟨S1025x16x626, .f32⟩ : BufTy).Contents (Elt F) → (⟨S16x1025x626, .f32⟩ : BufTy).Contents (Elt F)),
    binary main_arg2 main_v16 main_v19 ((fun l r => Host.dotGeneral dot_S1025x2048_S16x626x2048_S1025x16x626_1_2_0_01_n_n none l r) : (⟨S1025x2048, .f32⟩ : BufTy).Contents (Elt F) → (⟨S16x626x2048, .f32⟩ : BufTy).Contents (Elt F) → (⟨S1025x16x626, .f32⟩ : BufTy).Contents (Elt F)),
    unary main_v19 main_v20 ((transpose S16x1025x626 [1, 0, 2] · transposes_S1025x16x626_S16x1025x626_1_0_2) : (⟨S1025x16x626, .f32⟩ : BufTy).Contents (Elt F) → (⟨S16x1025x626, .f32⟩ : BufTy).Contents (Elt F)) ]

set_option maxRecDepth 2048 in
/-- The entry point is that line: the helper functions unfolded at their calls, sequencing reassociated. -/
theorem main_eq (c : Dev nD) : main (F := F) c = seq ops := by
  simp only [main, fn_pad.body, fn_flip.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub .., unary_bufs_sub .., binary_bufs_sub .., unary_bufs_sub .., unary_bufs_sub .., unary_bufs_sub .., binary_bufs_sub .., nullary_bufs_sub .., unary_bufs_sub .., nullary_bufs_sub .., unary_bufs_sub .., binary_bufs_sub .., nullary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., unary_bufs_sub ..⟩

/-- Every weakly fair execution terminates with every buffer at the operations' fold over the launch contents. -/
theorem run_ops (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

set_option maxHeartbeats 4000000 in
/-- The two results and the arguments after the run. Each result is the weight matrix contracted with the
    signal's frames over the tap axis, the product's first two axes exchanged; the arguments are as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v18) = transpose S16x1025x626 [1, 0, 2] (Host.dotGeneral dot_S1025x2048_S16x626x2048_S1025x16x626_1_2_0_01_n_n none (m ((c.tc : Thread nD τ).loc main_arg1)) (frames (m ((c.tc : Thread nD τ).loc main_arg0)))) transposes_S1025x16x626_S16x1025x626_1_0_2
      ∧ r.2.mem ((c.tc : Thread nD τ).loc main_v20) = transpose S16x1025x626 [1, 0, 2] (Host.dotGeneral dot_S1025x2048_S16x626x2048_S1025x16x626_1_2_0_01_n_n none (m ((c.tc : Thread nD τ).loc main_arg2)) (frames (m ((c.tc : Thread nD τ).loc main_arg0)))) transposes_S1025x16x626_S16x1025x626_1_0_2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v18).trans (by after_results_simp <;> (try simp only [TRef.ofBuf, TRef.toBuf, cast_eq]) <;> rfl),
      (h c main_v20).trans (by after_results_simp <;> (try simp only [TRef.ofBuf, TRef.toBuf, cast_eq]) <;> rfl),
      (h c main_arg0).trans (by after_results_simp <;> rfl),
      (h c main_arg1).trans (by after_results_simp <;> rfl),
      (h c main_arg2).trans (by after_results_simp <;> rfl)⟩)
    (run_ops m ρ)

end Cert.ReferenceIdeal.Hand

end
-- ==== Proof.RefSpectrum.lean ====
/-
  The reference's product read at an index.

  The reference contracts the weight matrix `w : [1025, 2048]` with the frames `fr : [16, 626, 2048]` over
  the tap axis (axis 1 of `w`, axis 2 of `fr`), which lays the result out as frequency bin × signal ×
  frame, and then transposes the first two axes. At the ideal values a contraction over one axis is the
  finite sum of the operands' products along it; the contraction index has one coordinate, the tap `k`;
  the left operand is read at `(f, k)` and the right one at `(b, t, k)`. So the transposed product at
  `(b, f, t)` is `∑ₖ w[f, k] · fr[b, t, k]`, the transform's entry.
-/
import proofs.«118406_j60258391162989_1_alg».proof.Proof.Gen.ReferenceIdeal
import proofs.«118406_j60258391162989_1_alg».proof.Proof.Spec
import Idealize.ShloMosaic.Lib.ValueIdx
import Idealize.ShloMosaic.Lib.Pipeline.Value
import Idealize.ShloMosaic.PureOps.Ideal.Laws

noncomputable section

namespace Cert.ReferenceIdeal.Spectrum

open Cert.ReferenceIdeal Cert.ReferenceIdeal.Gen Idealize.ShloMosaic Idealize.ShloMosaic.ValueIdx

/-! Which coordinate of the result, or of the contraction index, each operand axis reads. -/

theorem lhs_0 (i : S1025x16x626.Idx) (q : dot_S1025x2048_S16x626x2048_S1025x16x626_1_2_0_01_n_n.contr.Idx) :
    (dot_S1025x2048_S16x626x2048_S1025x16x626_1_2_0_01_n_n.lhsIdx i q 0).val = (i 0).val := by
  unfold DotDims.lhsIdx
  rw [dif_neg (show ¬(0 : Fin S1025x2048.rank) ∈ dot_S1025x2048_S16x626x2048_S1025x16x626_1_2_0_01_n_n.lhsBatch by decide), dif_pos (show (0 : Fin S1025x2048.rank) ∈ dot_S1025x2048_S16x626x2048_S1025x16x626_1_2_0_01_n_n.lhsNonContracting by decide)]
  rfl

theorem lhs_1 (i : S1025x16x626.Idx) (q : dot_S1025x2048_S16x626x2048_S1025x16x626_1_2_0_01_n_n.contr.Idx) :
    (dot_S1025x2048_S16x626x2048_S1025x16x626_1_2_0_01_n_n.lhsIdx i q 1).val = (q ⟨0, by decide⟩).val :=
  dot_S1025x2048_S16x626x2048_S1025x16x626_1_2_0_01_n_n.lhsIdx_val_of_single rfl i q

theorem rhs_0 (i : S1025x16x626.Idx) (q : dot_S1025x2048_S16x626x2048_S1025x16x626_1_2_0_01_n_n.contr.Idx) :
    (dot_S1025x2048_S16x626x2048_S1025x16x626_1_2_0_01_n_n.rhsIdx i q 0).val = (i 1).val := by
  unfold DotDims.rhsIdx
  rw [dif_neg (show ¬(0 : Fin S16x626x2048.rank) ∈ dot_S1025x2048_S16x626x2048_S1025x16x626_1_2_0_01_n_n.rhsBatch by decide), dif_pos (show (0 : Fin S16x626x2048.rank) ∈ dot_S1025x2048_S16x626x2048_S1025x16x626_1_2_0_01_n_n.rhsNonContracting by decide)]
  rfl

theorem rhs_1 (i : S1025x16x626.Idx) (q : dot_S1025x2048_S16x626x2048_S1025x16x626_1_2_0_01_n_n.contr.Idx) :
    (dot_S1025x2048_S16x626x2048_S1025x16x626_1_2_0_01_n_n.rhsIdx i q 1).val = (i 2).val := by
  unfold DotDims.rhsIdx
  rw [dif_neg (show ¬(1 : Fin S16x626x2048.rank) ∈ dot_S1025x2048_S16x626x2048_S1025x16x626_1_2_0_01_n_n.rhsBatch by decide), dif_pos (show (1 : Fin S16x626x2048.rank) ∈ dot_S1025x2048_S16x626x2048_S1025x16x626_1_2_0_01_n_n.rhsNonContracting by decide)]
  rfl

theorem rhs_2 (i : S1025x16x626.Idx) (q : dot_S1025x2048_S16x626x2048_S1025x16x626_1_2_0_01_n_n.contr.Idx) :
    (dot_S1025x2048_S16x626x2048_S1025x16x626_1_2_0_01_n_n.rhsIdx i q 2).val = (q ⟨0, by decide⟩).val :=
  dot_S1025x2048_S16x626x2048_S1025x16x626_1_2_0_01_n_n.rhsIdx_val_of_single rfl i q

/-- The product before the transpose, at `(f, b, t)`: the sum over the taps. -/
theorem product_apply (w : FVec Ideal S1025x2048 .f32) (fr : FVec Ideal S16x626x2048 .f32)
    (f : Fin 1025) (b : Fin 16) (t : Fin 626) :
    Host.dotGeneral (F := Ideal) dot_S1025x2048_S16x626x2048_S1025x16x626_1_2_0_01_n_n none w fr (ix3 f b t) = Cert.Stft.bin w fr b f t := by
  simp only [Host.dotGeneral]
  rw [Ideal.dotGeneral_apply, ← Equiv.sum_comp (contrEquiv1 dot_S1025x2048_S16x626x2048_S1025x16x626_1_2_0_01_n_n 2048 rfl rfl).symm]
  unfold Cert.Stft.bin
  refine Finset.sum_congr rfl fun k _ => ?_
  have hk := contrEquiv1_symm_val dot_S1025x2048_S16x626x2048_S1025x16x626_1_2_0_01_n_n 2048 rfl rfl k
  have el : dot_S1025x2048_S16x626x2048_S1025x16x626_1_2_0_01_n_n.lhsIdx (ix3 f b t) ((contrEquiv1 dot_S1025x2048_S16x626x2048_S1025x16x626_1_2_0_01_n_n 2048 rfl rfl).symm k) = ix2 f k := funext fun a => Fin.ext (by
    match a with
    | ⟨0, _⟩ => exact lhs_0 _ _
    | ⟨1, _⟩ => exact (lhs_1 _ _).trans hk)
  have er : dot_S1025x2048_S16x626x2048_S1025x16x626_1_2_0_01_n_n.rhsIdx (ix3 f b t) ((contrEquiv1 dot_S1025x2048_S16x626x2048_S1025x16x626_1_2_0_01_n_n 2048 rfl rfl).symm k) = ix3 b t k := funext fun a => Fin.ext (by
    match a with
    | ⟨0, _⟩ => exact rhs_0 _ _
    | ⟨1, _⟩ => exact rhs_1 _ _
    | ⟨2, _⟩ => exact (rhs_2 _ _).trans hk)
  rw [el, er]

/-- The reference's result — the product with its first two axes exchanged — is the transform. -/
theorem transposed_product_eq (w : FVec Ideal S1025x2048 .f32) (fr : FVec Ideal S16x626x2048 .f32) :
    transpose S16x1025x626 [1, 0, 2] (Host.dotGeneral (F := Ideal) dot_S1025x2048_S16x626x2048_S1025x16x626_1_2_0_01_n_n none w fr) transposes_S1025x16x626_S16x1025x626_1_0_2
      = Cert.Stft.spectrum w fr := by
  funext i
  obtain ⟨b, f, t, rfl⟩ : ∃ (b : Fin 16) (f : Fin 1025) (t : Fin 626), i = ix3 b f t := ⟨i 0, i 1, i 2, eq_ix3 i⟩
  rw [transpose_apply [1, 0, 2] _ _ (ix3 b f t) (ix3 f b t) (fun c => match c with | ⟨0, _⟩ => rfl | ⟨1, _⟩ => rfl | ⟨2, _⟩ => rfl)]
  rw [product_apply, Cert.Stft.spectrum_apply]

end Cert.ReferenceIdeal.Spectrum

end
-- ==== Proof.lean ====
/-
  A short-time Fourier transform computed as one matrix product per signal, against the same transform
  written as one contraction over the whole batch.

  Both programs frame the signal in the same way (reflection padding, then 626 overlapping frames of 2048
  samples, 512 apart) and then take, for every signal `b`, frequency bin `f` and frame `t`, the inner
  product over the 2048 taps of row `f` of a weight matrix with frame `t` of signal `b` — once with the
  real part's weights and once with the imaginary part's. The kernel does it signal by signal on the matrix
  unit, on operands changed to a narrower format first, which at the ideal values changes nothing; the
  reference contracts the whole batch at once and exchanges two axes of the product. Over the extended reals
  both entries are the same finite sum `∑ₖ w[f, k] · frames[b, t, k]`, term for term in the same order, so
  no algebraic law is needed and the precondition is not used.

  The kernel's program logic (termination, no fault, arguments unchanged) is the generated frame of each
  kernel program; the reference is a straight line of host operations.
-/
import proofs.«118406_j60258391162989_1_alg».proof.Defs
import proofs.«118406_j60258391162989_1_alg».proof.Proof.Gen.Kernel
import proofs.«118406_j60258391162989_1_alg».proof.Proof.Gen.Kernel.Frame
import proofs.«118406_j60258391162989_1_alg».proof.Proof.Gen.KernelIdeal
import proofs.«118406_j60258391162989_1_alg».proof.Proof.Gen.KernelIdeal.Frame
import proofs.«118406_j60258391162989_1_alg».proof.Proof.Gen.KernelIdeal.Value
import proofs.«118406_j60258391162989_1_alg».proof.Proof.Gen.ReferenceIdeal
import proofs.«118406_j60258391162989_1_alg».proof.Proof.Gen.Pre_finite_inputs
import proofs.«118406_j60258391162989_1_alg».proof.Proof.KernelRun
import proofs.«118406_j60258391162989_1_alg».proof.Proof.RefRun
import proofs.«118406_j60258391162989_1_alg».proof.Proof.RefSpectrum

noncomputable section

namespace Cert.Proof

open Idealize.ShloMosaic Idealize.ShloMosaic.TcCoe Idealize.SL.Sem

/-- The two programs frame a signal by the same host operations: the frames are one function of the signal. -/
theorem frames_eq {F : FTy → Type} [FloatOps F] (x : FVec F Cert.KernelIdeal.S16x320000 .f32) :
    Cert.KernelIdeal.Hand.frames x = Cert.ReferenceIdeal.Hand.frames x := rfl

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the results dropped. -/
theorem frame_reference : Cert.frame_ReferenceIdeal := fun m ρ _ =>
  (θ_run Cert.ReferenceIdeal.defs _ _).mono (fun _ h c => (h c).2.2) (Cert.ReferenceIdeal.Hand.run (F := Ideal) m ρ)

/-- From memories that agree on the arguments both programs end with each result at the transform of its
    weight argument and the signal's frames. -/
theorem algebraic : Cert.algebraic_KernelIdeal_ReferenceIdeal := by
  intro m ρ m' ρ' _ hagree
  refine ⟨fun c => Cert.Stft.spectrum (m ((c.tc : Thread Cert.KernelIdeal.nD Cert.KernelIdeal.τ).loc Cert.KernelIdeal.main_arg1))
      (Cert.KernelIdeal.Hand.frames (F := Ideal) (m ((c.tc : Thread Cert.KernelIdeal.nD Cert.KernelIdeal.τ).loc Cert.KernelIdeal.main_arg0))),
    fun c => Cert.Stft.spectrum (m ((c.tc : Thread Cert.KernelIdeal.nD Cert.KernelIdeal.τ).loc Cert.KernelIdeal.main_arg2))
      (Cert.KernelIdeal.Hand.frames (F := Ideal) (m ((c.tc : Thread Cert.KernelIdeal.nD Cert.KernelIdeal.τ).loc Cert.KernelIdeal.main_arg0))),
    Cert.KernelIdeal.Hand.run m ρ, ?_⟩
  refine (θ_run Cert.ReferenceIdeal.defs _ _).mono (fun _ h c => ?_) (Cert.ReferenceIdeal.Hand.run (F := Ideal) m' ρ')
  obtain ⟨h18, h20, hargs⟩ := h c
  obtain ⟨e0, e1, e2⟩ := hagree c
  refine ⟨?_, ?_, hargs⟩
  · exact h18.trans ((Cert.ReferenceIdeal.Spectrum.transposed_product_eq _ _).trans (by rw [e0, e1, ← frames_eq]))
  · exact h20.trans ((Cert.ReferenceIdeal.Spectrum.transposed_product_eq _ _).trans (by rw [e0, e2, ← frames_eq]))

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
